-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S16384x128 .f32) (main_arg1 : FVec F S64x128 .f32) (main_arg2 : FVec F S64 .f32) (main_arg3 : FVec F S1x64 .f32) (main_arg4 : FVec F S1 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_v13 main_v16
-- ==== Kernel.lean ====
abbrev S16384x128 : Shape := ⟨2, ![16384, 128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S128x64 : Shape := ⟨2, ![128, 64]⟩
abbrev S64x1 : Shape := ⟨2, ![64, 1]⟩
abbrev S1x1 : Shape := ⟨2, ![1, 1]⟩
abbrev S128x128 : Shape := ⟨2, ![128, 128]⟩
abbrev S2048x128 : Shape := ⟨2, ![2048, 128]⟩
abbrev S16x128 : Shape := ⟨2, ![16, 128]⟩
abbrev S2048x64 : Shape := ⟨2, ![2048, 64]⟩
abbrev S2048x1 : Shape := ⟨2, ![2048, 1]⟩
abbrev S16384 : Shape := ⟨1, ![16384]⟩

abbrev nBuf : Space → Nat
  | .hbm => 11
  | .vmem => 8
  | .smem => 0
  | _ => 0

abbrev bufTy : (tb : Table) → Fin (tcTables nBuf tb) → BufTy
  | .hbm, ⟨0, _⟩ => ⟨S16384x128, .f32⟩
  | .hbm, ⟨1, _⟩ => ⟨S64x128, .f32⟩
  | .hbm, ⟨2, _⟩ => ⟨S64, .f32⟩
  | .hbm, ⟨3, _⟩ => ⟨S1x64, .f32⟩
  | .hbm, ⟨4, _⟩ => ⟨S1, .f32⟩
  | .hbm, ⟨5, _⟩ => ⟨S128x64, .f32⟩
  | .hbm, ⟨6, _⟩ => ⟨S1x64, .f32⟩
  | .hbm, ⟨7, _⟩ => ⟨S64x1, .f32⟩
  | .hbm, ⟨8, _⟩ => ⟨S1x1, .f32⟩
  | .hbm, ⟨9, _⟩ => ⟨S128x128, .f32⟩
  | .hbm, ⟨10, _⟩ => ⟨S16384, .f32⟩
  | .local _ .vmem, ⟨0, _⟩ => ⟨S2048x128, .f32⟩
  | .local _ .vmem, ⟨1, _⟩ => ⟨S2048x128, .f32⟩
  | .local _ .vmem, ⟨2, _⟩ => ⟨S128x64, .f32⟩
  | .local _ .vmem, ⟨3, _⟩ => ⟨S1x64, .f32⟩
  | .local _ .vmem, ⟨4, _⟩ => ⟨S64x1, .f32⟩
  | .local _ .vmem, ⟨5, _⟩ => ⟨S1x1, .f32⟩
  | .local _ .vmem, ⟨6, _⟩ => ⟨S16x128, .f32⟩
  | .local _ .vmem, ⟨7, _⟩ => ⟨S16x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S64x128_S128x64_1_0 : S64x128.Transposes [1, 0] S128x64
  shapeCasts_S64_S1x64 : S64.ShapeCasts S1x64
  shapeCasts_S1x64_S64x1 : S1x64.ShapeCasts S64x1
  shapeCasts_S1_S1x1 : S1.ShapeCasts S1x1
  inb_S2048x128_S2048x128_0_0 : ∀ a, (![0, 0] : Fin 2 → Nat) a + S2048x128.size a ≤ S2048x128.size a
  h_S2048x128 : 0 < S2048x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S2048x1_S16x128 : S2048x1.ShapeCasts S16x128
  inb_S16x128_S16x128_0_0 : ∀ a, (![0, 0] : Fin 2 → Nat) a + S16x128.size a ≤ S16x128.size a
  h_S16x128 : 0 < S16x128.numel
  shapeCasts_S128x128_S16384 : S128x128.ShapeCasts S16384
  dot_S2048x128_S128x64_S2048x64_1_0_0_1_n_n_wf : DotDims.WF S2048x128 S128x64 S2048x64 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x128.size a ≤ S128x128.size a
  hwx0_5 : ∀ i : grid0.Coords, EltTy.bits .f32 = 32 ∨ (Rect.block (s := S128x128) S16x128.size (cc0_transform_5 i) (hinb0_5 i)).WholeWords (EltTy.packing .f32)

variable [Facts₀]

def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S16x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x128 : Shape := ⟨2, ![16384, 128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S128x64 : Shape := ⟨2, ![128, 64]⟩
abbrev S16384x64 : Shape := ⟨2, ![16384, 64]⟩
abbrev S_ : Shape := ⟨0, ![]⟩
abbrev S64x1 : Shape := ⟨2, ![64, 1]⟩
abbrev S16384x1 : Shape := ⟨2, ![16384, 1]⟩
abbrev S1x1 : Shape := ⟨2, ![1, 1]⟩
abbrev S16384 : Shape := ⟨1, ![16384]⟩

abbrev nBuf : Space → Nat
  | .hbm => 19
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S64x128, .f32⟩
  | .hbm, ⟨2, _⟩ => ⟨S64, .f32⟩
  | .hbm, ⟨3, _⟩ => ⟨S1x64, .f32⟩
  | .hbm, ⟨4, _⟩ => ⟨S1, .f32⟩
  | .hbm, ⟨5, _⟩ => ⟨S128x64, .f32⟩
  | .hbm, ⟨6, _⟩ => ⟨S16384x64, .f32⟩
  | .hbm, ⟨7, _⟩ => ⟨S1x64, .f32⟩
  | .hbm, ⟨8, _⟩ => ⟨S16384x64, .f32⟩
  | .hbm, ⟨9, _⟩ => ⟨S16384x64, .f32⟩
  | .hbm, ⟨10, _⟩ => ⟨S_, .f32⟩
  | .hbm, ⟨11, _⟩ => ⟨S16384x64, .f32⟩
  | .hbm, ⟨12, _⟩ => ⟨S16384x64, .f32⟩
  | .hbm, ⟨13, _⟩ => ⟨S64x1, .f32⟩
  | .hbm, ⟨14, _⟩ => ⟨S16384x1, .f32⟩
  | .hbm, ⟨15, _⟩ => ⟨S1x1, .f32⟩
  | .hbm, ⟨16, _⟩ => ⟨S16384x1, .f32⟩
  | .hbm, ⟨17, _⟩ => ⟨S16384x1, .f32⟩
  | .hbm, ⟨18, _⟩ => ⟨S16384, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  transposes_S1x64_S64x1_1_0 : S1x64.Transposes [1, 0] S64x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  dot_S16384x128_S128x64_S16384x64_1_0_0_1_n_n_wf : DotDims.WF S16384x128 S128x64 S16384x64 [1] [0] [0] [1] [] []
  dot_S16384x64_S64x1_S16384x1_1_0_0_1_n_n_wf : DotDims.WF S16384x64 S64x1 S16384x1 [1] [0] [0] [1] [] []

variable [Facts₀]

def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.Spec.lean ====
/-
  The function both programs compute, stated once over literal shapes and on the extended reals.

  A two-layer perceptron head.  For a batch row `r` (of 16384), with `acc` the 16384 × 128 input, `w1` the
  64 × 128 first-layer weights, `b1` its 64 biases, `w2` the 1 × 64 second-layer weights and `b2` its one bias:

    hidden r j = max (Σ_{k < 128} acc[r, k] · w1[j, k] + b1[j]) 0          (j < 64)
    head r     = Σ_{j < 64} hidden r j · w2[0, j] + b2[0]

  Every sum is a finite sum over its index type, in no particular order; nothing here distributes a product over a
  sum or cancels, so the statement is the same whether or not an entry is infinite.  The zero of the rectifier is
  kept as the word of `0.0` that both programs print, so it is never evaluated.

  The 16384 values are read in two layouts: as a vector of length 16384 (what both programs return) and as a
  128 × 128 array in row-major order (what the kernel's output array holds before the final reshape): entry
  (P, q) of the latter is row 128·P + q.
-/
import Idealize.ShloMosaic.PureOps.Ideal
import Idealize.ShloMosaic.Lib.ValueIdx

noncomputable section

namespace Cert.MlpHead

open Idealize.ShloMosaic Idealize.ShloMosaic.ValueIdx

/-- Hidden unit `j` of row `r`: the rectified affine form of the row. -/
def hidden (acc : (⟨2, ![16384, 128]⟩ : Shape).Idx → EReal) (w1 : (⟨2, ![64, 128]⟩ : Shape).Idx → EReal)
    (b1 : (⟨1, ![64]⟩ : Shape).Idx → EReal) (r : Fin 16384) (j : Fin 64) : EReal :=
  max ((∑ k : Fin 128, acc (ix2 r k) * w1 (ix2 j k)) + b1 (ix1 j)) (Ideal.ofBits .f32 0x00000000#32)

/-- The head's value at row `r`: the second layer's affine form of the row's hidden units. -/
def head (acc : (⟨2, ![16384, 128]⟩ : Shape).Idx → EReal) (w1 : (⟨2, ![64, 128]⟩ : Shape).Idx → EReal)
    (b1 : (⟨1, ![64]⟩ : Shape).Idx → EReal) (w2 : (⟨2, ![1, 64]⟩ : Shape).Idx → EReal)
    (b2 : (⟨1, ![1]⟩ : Shape).Idx → EReal) (r : Fin 16384) : EReal :=
  (∑ j : Fin 64, hidden acc w1 b1 r j * w2 (ix2 (0 : Fin 1) j)) + b2 (ix1 (0 : Fin 1))

/-- The head as the vector of length 16384 both programs return. -/
def headVec (acc : (⟨2, ![16384, 128]⟩ : Shape).Idx → EReal) (w1 : (⟨2, ![64, 128]⟩ : Shape).Idx → EReal)
    (b1 : (⟨1, ![64]⟩ : Shape).Idx → EReal) (w2 : (⟨2, ![1, 64]⟩ : Shape).Idx → EReal)
    (b2 : (⟨1, ![1]⟩ : Shape).Idx → EReal) : (⟨1, ![16384]⟩ : Shape).Idx → EReal :=
  fun i => head acc w1 b1 w2 b2 (i 0)

/-- Row 128·P + q: where entry (P, q) of the 128 × 128 layout sits in the batch. -/
def rowOf (P q : Fin 128) : Fin 16384 := ⟨P.val * 128 + q.val, by have := P.isLt; have := q.isLt; omega⟩

/-- The same values as a 128 × 128 array in row-major order. -/
def headTile (acc : (⟨2, ![16384, 128]⟩ : Shape).Idx → EReal) (w1 : (⟨2, ![64, 128]⟩ : Shape).Idx → EReal)
    (b1 : (⟨1, ![64]⟩ : Shape).Idx → EReal) (w2 : (⟨2, ![1, 64]⟩ : Shape).Idx → EReal)
    (b2 : (⟨1, ![1]⟩ : Shape).Idx → EReal) : (⟨2, ![128, 128]⟩ : Shape).Idx → EReal :=
  fun i => head acc w1 b1 w2 b2 (rowOf (i 0) (i 1))

end Cert.MlpHead

end
-- ==== Proof.RefHead.lean ====
/-
  The reference's result is the head.

  The reference computes, as whole-array operations on the host: the transpose of `w1`, its product with `acc`
  contracted over the 128 features, the bias `b1` broadcast along the batch and added, the maximum with a zero
  array, the product with the transpose of `w2` contracted over the 64 hidden units, the bias `b2` broadcast and
  added, and a reshape of the 16384 × 1 column to a vector.  Read at an index `i` each of these is its operand at
  an index computed from `i` (a product: a sum over the contracted coordinate of the operands' products), so the
  result at `i` is the head's sum at row `i` once the composed index functions are identified with the head's
  own coordinates: row `i` and feature `k` of `acc`; unit `j` and feature `k` of `w1`; unit `j` of `b1`
  and of `w2`; the one entry of `b2`.
-/
import proofs.«100352_g8358006358319_cont_9to1c4b_776_2_alg».proof.Proof.Gen.ReferenceIdeal.Read
import proofs.«100352_g8358006358319_cont_9to1c4b_776_2_alg».proof.Proof.Spec

noncomputable section

namespace Cert.MlpHead.Ref

open Cert.ReferenceIdeal Cert.ReferenceIdeal.Read Idealize.ShloMosaic Idealize.ShloMosaic.ValueIdx

/-- The entry of `acc` the first product reads for row `i`, hidden unit `j`, feature `k`. -/
theorem acc_idx (i : S16384.Idx) (j : Fin 64) (k : Fin 128) :
    lidx_main_v1 (lidx_main_v7 (idx_main_v11 i) j) k = ix2 (i 0) k :=
  funext fun a => Fin.ext (by
    match a with
    | ⟨0, _⟩ => exact Nat.div_one _
    | ⟨1, _⟩ => rfl)

/-- The entry of `w1` it reads through the transpose: unit `j`, feature `k`. -/
theorem w1_idx (i : S16384.Idx) (j : Fin 64) (k : Fin 128) :
    idx_main_v0 (ridx_main_v1 (lidx_main_v7 (idx_main_v11 i) j) k) = ix2 j k :=
  funext fun a => Fin.ext (by
    match a with
    | ⟨0, _⟩ => rfl
    | ⟨1, _⟩ => rfl)

/-- The entry of `b1` the two broadcasts read: unit `j`. -/
theorem b1_idx (i : S16384.Idx) (j : Fin 64) :
    idx_main_v2 (idx_main_v3 (lidx_main_v7 (idx_main_v11 i) j)) = ix1 j :=
  funext fun a => Fin.ext (by
    match a with
    | ⟨0, _⟩ => rfl)

/-- The entry of `w2` the second product reads through the transpose: unit `j` of its one row. -/
theorem w2_idx (i : S16384.Idx) (j : Fin 64) :
    idx_main_v6 (ridx_main_v7 (idx_main_v11 i) j) = ix2 (0 : Fin 1) j :=
  funext fun a => Fin.ext (by
    match a with
    | ⟨0, _⟩ => rfl
    | ⟨1, _⟩ => rfl)

/-- The one entry of `b2`. -/
theorem b2_idx (i : S16384.Idx) : idx_main_v8 (idx_main_v9 (idx_main_v11 i)) = ix1 (0 : Fin 1) :=
  funext fun a => Fin.ext (by
    match a with
    | ⟨0, _⟩ => rfl)

/-- The reference's last stage, at the ideal values, is the head as a vector. -/
theorem result_eq (x0 : (⟨S16384x128, .f32⟩ : BufTy).Contents (Elt Ideal)) (x1 : (⟨S64x128, .f32⟩ : BufTy).Contents (Elt Ideal))
    (x2 : (⟨S64, .f32⟩ : BufTy).Contents (Elt Ideal)) (x3 : (⟨S1x64, .f32⟩ : BufTy).Contents (Elt Ideal))
    (x4 : (⟨S1, .f32⟩ : BufTy).Contents (Elt Ideal)) :
    val_main_v11 (F := Ideal) x0 x1 x2 x3 x4 = headVec x0 x1 x2 x3 x4 := by
  funext i
  rw [val_main_v11_apply, val_main_v10_apply, val_main_v7_apply, val_main_v9_apply, val_main_v8_apply]
  simp only [val_main_v5_apply, val_main_v4_apply, val_main_v1_apply, val_main_v3_apply, val_main_v2_apply,
    val_main_call0_v0_apply, val_main_call0_cst_apply, val_main_v6_apply, val_main_v0_apply,
    acc_idx, w1_idx, b1_idx, w2_idx, b2_idx]
  rfl

end Cert.MlpHead.Ref

end
-- ==== Proof.Payload.lean ====
/-
  What the kernel's body stores, read at an index.

  At a grid point the body holds a 2048 × 128 block `x0` of `acc`, the 128 × 64 transposed first-layer weights
  `x1`, the 1 × 64 bias row `x2`, the 64 × 1 second-layer column `x3` and the 1 × 1 bias `x4`.  It forms

    layer1 = max (x0 · x1 + (x2 broadcast down the rows)) 0               2048 × 64
    layer2 = layer1 · x3 + (x4's entry broadcast)                         2048 × 1

  (each product accumulated into a zero array, so at the ideal values it is the plain sum over the contracted
  coordinate) and stores `layer2` re-laid as 16 × 128 in row-major order: entry (p, q) of the stored block is
  entry 128·p + q of the column.
-/
import proofs.«100352_g8358006358319_cont_9to1c4b_776_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The two products' operand indices, axis by axis -/

theorem lhs1_0 (i : S2048x64.Idx) (q : dot_S2048x128_S128x64_S2048x64_1_0_0_1_n_n.contr.Idx) :
    (dot_S2048x128_S128x64_S2048x64_1_0_0_1_n_n.lhsIdx i q 0).val = (i 0).val := by
  unfold DotDims.lhsIdx
  rw [dif_neg (show ¬(0 : Fin S2048x128.rank) ∈ dot_S2048x128_S128x64_S2048x64_1_0_0_1_n_n.lhsBatch by decide), dif_pos (show (0 : Fin S2048x128.rank) ∈ dot_S2048x128_S128x64_S2048x64_1_0_0_1_n_n.lhsNonContracting by decide)]
  rfl
theorem lhs1_1 (i : S2048x64.Idx) (q : dot_S2048x128_S128x64_S2048x64_1_0_0_1_n_n.contr.Idx) :
    (dot_S2048x128_S128x64_S2048x64_1_0_0_1_n_n.lhsIdx i q 1).val = (q ⟨0, by decide⟩).val :=
  dot_S2048x128_S128x64_S2048x64_1_0_0_1_n_n.lhsIdx_val_of_single rfl i q
theorem rhs1_0 (i : S2048x64.Idx) (q : dot_S2048x128_S128x64_S2048x64_1_0_0_1_n_n.contr.Idx) :
    (dot_S2048x128_S128x64_S2048x64_1_0_0_1_n_n.rhsIdx i q 0).val = (q ⟨0, by decide⟩).val :=
  dot_S2048x128_S128x64_S2048x64_1_0_0_1_n_n.rhsIdx_val_of_single rfl i q
theorem rhs1_1 (i : S2048x64.Idx) (q : dot_S2048x128_S128x64_S2048x64_1_0_0_1_n_n.contr.Idx) :
    (dot_S2048x128_S128x64_S2048x64_1_0_0_1_n_n.rhsIdx i q 1).val = (i 1).val := by
  unfold DotDims.rhsIdx
  rw [dif_neg (show ¬(1 : Fin S128x64.rank) ∈ dot_S2048x128_S128x64_S2048x64_1_0_0_1_n_n.rhsBatch by decide), dif_pos (show (1 : Fin S128x64.rank) ∈ dot_S2048x128_S128x64_S2048x64_1_0_0_1_n_n.rhsNonContracting by decide)]
  rfl

theorem lhs2_0 (i : S2048x1.Idx) (q : dot_S2048x64_S64x1_S2048x1_1_0_0_1_n_n.contr.Idx) :
    (dot_S2048x64_S64x1_S2048x1_1_0_0_1_n_n.lhsIdx i q 0).val = (i 0).val := by
  unfold DotDims.lhsIdx
  rw [dif_neg (show ¬(0 : Fin S2048x64.rank) ∈ dot_S2048x64_S64x1_S2048x1_1_0_0_1_n_n.lhsBatch by decide), dif_pos (show (0 : Fin S2048x64.rank) ∈ dot_S2048x64_S64x1_S2048x1_1_0_0_1_n_n.lhsNonContracting by decide)]
  rfl
theorem lhs2_1 (i : S2048x1.Idx) (q : dot_S2048x64_S64x1_S2048x1_1_0_0_1_n_n.contr.Idx) :
    (dot_S2048x64_S64x1_S2048x1_1_0_0_1_n_n.lhsIdx i q 1).val = (q ⟨0, by decide⟩).val :=
  dot_S2048x64_S64x1_S2048x1_1_0_0_1_n_n.lhsIdx_val_of_single rfl i q
theorem rhs2_0 (i : S2048x1.Idx) (q : dot_S2048x64_S64x1_S2048x1_1_0_0_1_n_n.contr.Idx) :
    (dot_S2048x64_S64x1_S2048x1_1_0_0_1_n_n.rhsIdx i q 0).val = (q ⟨0, by decide⟩).val :=
  dot_S2048x64_S64x1_S2048x1_1_0_0_1_n_n.rhsIdx_val_of_single rfl i q
theorem rhs2_1 (i : S2048x1.Idx) (q : dot_S2048x64_S64x1_S2048x1_1_0_0_1_n_n.contr.Idx) :
    (dot_S2048x64_S64x1_S2048x1_1_0_0_1_n_n.rhsIdx i q 1).val = (i 1).val := by
  unfold DotDims.rhsIdx
  rw [dif_neg (show ¬(1 : Fin S64x1.rank) ∈ dot_S2048x64_S64x1_S2048x1_1_0_0_1_n_n.rhsBatch by decide), dif_pos (show (1 : Fin S64x1.rank) ∈ dot_S2048x64_S64x1_S2048x1_1_0_0_1_n_n.rhsNonContracting by decide)]
  rfl

/-! ## The two products into a zero array, read at an index -/

/-- Row `i 0` of the left operand against column `i 1` of the right, summed over the 128 features. -/
theorem product1_apply (x : FVec Ideal S2048x128 .f32) (y : FVec Ideal S128x64 .f32) (i : S2048x64.Idx) :
    matmul dot_S2048x128_S128x64_S2048x64_1_0_0_1_n_n none x y (constant (F := Ideal) S2048x64 .f32 0x00000000#32) i
      = ∑ k : Fin 128, x (ix2 (i 0) k) * y (ix2 k (i 1)) := by
  simp only [matmul]
  rw [Ideal.matmul_constant_zero_apply, ← Equiv.sum_comp (contrEquiv1 dot_S2048x128_S128x64_S2048x64_1_0_0_1_n_n 128 rfl rfl).symm]
  refine Finset.sum_congr rfl fun k _ => ?_
  have hk := contrEquiv1_symm_val dot_S2048x128_S128x64_S2048x64_1_0_0_1_n_n 128 rfl rfl k
  have el : dot_S2048x128_S128x64_S2048x64_1_0_0_1_n_n.lhsIdx i ((contrEquiv1 dot_S2048x128_S128x64_S2048x64_1_0_0_1_n_n 128 rfl rfl).symm k) = ix2 (i 0) k := funext fun a => Fin.ext (by
    match a with
    | ⟨0, _⟩ => exact lhs1_0 _ _
    | ⟨1, _⟩ => exact (lhs1_1 _ _).trans hk)
  have er : dot_S2048x128_S128x64_S2048x64_1_0_0_1_n_n.rhsIdx i ((contrEquiv1 dot_S2048x128_S128x64_S2048x64_1_0_0_1_n_n 128 rfl rfl).symm k) = ix2 k (i 1) := funext fun a => Fin.ext (by
    match a with
    | ⟨0, _⟩ => exact (rhs1_0 _ _).trans hk
    | ⟨1, _⟩ => exact rhs1_1 _ _)
  exact congrArg₂ (· * ·) (congrArg x el) (congrArg y er)

/-- Row `i 0` of the left operand against the right's one column, summed over the 64 hidden units. -/
theorem product2_apply (x : FVec Ideal S2048x64 .f32) (y : FVec Ideal S64x1 .f32) (i : S2048x1.Idx) :
    matmul dot_S2048x64_S64x1_S2048x1_1_0_0_1_n_n none x y (constant (F := Ideal) S2048x1 .f32 0x00000000#32) i
      = ∑ j : Fin 64, x (ix2 (i 0) j) * y (ix2 j (i 1)) := by
  simp only [matmul]
  rw [Ideal.matmul_constant_zero_apply, ← Equiv.sum_comp (contrEquiv1 dot_S2048x64_S64x1_S2048x1_1_0_0_1_n_n 64 rfl rfl).symm]
  refine Finset.sum_congr rfl fun k _ => ?_
  have hk := contrEquiv1_symm_val dot_S2048x64_S64x1_S2048x1_1_0_0_1_n_n 64 rfl rfl k
  have el : dot_S2048x64_S64x1_S2048x1_1_0_0_1_n_n.lhsIdx i ((contrEquiv1 dot_S2048x64_S64x1_S2048x1_1_0_0_1_n_n 64 rfl rfl).symm k) = ix2 (i 0) k := funext fun a => Fin.ext (by
    match a with
    | ⟨0, _⟩ => exact lhs2_0 _ _
    | ⟨1, _⟩ => exact (lhs2_1 _ _).trans hk)
  have er : dot_S2048x64_S64x1_S2048x1_1_0_0_1_n_n.rhsIdx i ((contrEquiv1 dot_S2048x64_S64x1_S2048x1_1_0_0_1_n_n 64 rfl rfl).symm k) = ix2 k (i 1) := funext fun a => Fin.ext (by
    match a with
    | ⟨0, _⟩ => exact (rhs2_0 _ _).trans hk
    | ⟨1, _⟩ => exact rhs2_1 _ _)
  exact congrArg₂ (· * ·) (congrArg x el) (congrArg y er)

/-! ## The body's two layers -/

/-- The first layer of a block: the rectified product plus the bias row broadcast down the rows. -/
def layer1 (x0 : FVec Ideal S2048x128 .f32) (x1 : FVec Ideal S128x64 .f32) (x2 : FVec Ideal S1x64 .f32) : FVec Ideal S2048x64 .f32 :=
  maximumf
    (addf (matmul dot_S2048x128_S128x64_S2048x64_1_0_0_1_n_n none x0 (shapeCast S128x64 x1 shapeCasts_S128x64_S128x64) (constant S2048x64 .f32 0x00000000#32))
      (broadcastTo S2048x64 (shapeCast S1x64 x2 shapeCasts_S1x64_S1x64) broadcasts_S1x64_S2048x64))
    (broadcast S2048x64 (Scalar.ofBits .f32 0x00000000#32))

/-- The second layer: the product with the weight column plus the one bias entry, a 2048 × 1 column. -/
def layer2 (h : FVec Ideal S2048x64 .f32) (x3 : FVec Ideal S64x1 .f32) (x4 : FVec Ideal S1x1 .f32) : FVec Ideal S2048x1 .f32 :=
  addf (matmul dot_S2048x64_S64x1_S2048x1_1_0_0_1_n_n none h (shapeCast S64x1 x3 shapeCasts_S64x1_S64x1) (constant S2048x1 .f32 0x00000000#32))
    (broadcast S2048x1 (extractAt ![0, 0] x4 inpos_S1x1_p0_0))

/-- The stored value is the second layer's column re-laid as 16 × 128. -/
theorem stored_eq (x0 : FVec Ideal S2048x128 .f32) (x1 : FVec Ideal S128x64 .f32) (x2 : FVec Ideal S1x64 .f32)
    (x3 : FVec Ideal S64x1 .f32) (x4 : FVec Ideal S1x1 .f32) :
    k0_pay1 (F := Ideal) x0 x1 x2 x3 x4 = shapeCast S16x128 (layer2 (layer1 x0 x1 x2) x3 x4) shapeCasts_S2048x1_S16x128 := rfl

/-- Hidden unit `j` of row `r` of the block. -/
theorem layer1_apply (x0 : FVec Ideal S2048x128 .f32) (x1 : FVec Ideal S128x64 .f32) (x2 : FVec Ideal S1x64 .f32)
    (r : Fin 2048) (j : Fin 64) :
    layer1 x0 x1 x2 (ix2 r j)
      = max ((∑ k : Fin 128, x0 (ix2 r k) * x1 (ix2 k j)) + x2 (ix2 (0 : Fin 1) j)) (Ideal.ofBits .f32 0x00000000#32) := by
  unfold layer1
  rw [maximumf_apply, addf_apply, product1_apply, shapeCast_self, broadcast_apply,
    broadcastTo_apply _ broadcasts_S1x64_S2048x64 (ix2 r j) (ix2 (0 : Fin 1) j) (fun a => by
      match a with
      | ⟨0, _⟩ => rfl
      | ⟨1, _⟩ => rfl),
    shapeCast_self]
  rfl

/-- Row `r` of the second layer's column. -/
theorem layer2_apply (h : FVec Ideal S2048x64 .f32) (x3 : FVec Ideal S64x1 .f32) (x4 : FVec Ideal S1x1 .f32) (r : Fin 2048) :
    layer2 h x3 x4 (ix2 r (0 : Fin 1))
      = (∑ j : Fin 64, h (ix2 r j) * x3 (ix2 j (0 : Fin 1))) + x4 (ix2 (0 : Fin 1) (0 : Fin 1)) := by
  unfold layer2
  rw [addf_apply, product2_apply, shapeCast_self, broadcast_apply]
  have e : (fun a => ⟨(![0, 0] : Fin 2 → Nat) a, inpos_S1x1_p0_0 a⟩ : S1x1.Idx) = ix2 (0 : Fin 1) (0 : Fin 1) :=
    funext fun a => Fin.ext (by
      match a with
      | ⟨0, _⟩ => rfl
      | ⟨1, _⟩ => rfl)
  unfold extractAt
  rw [e]

/-- Row 128·p + q of a block's 2048 rows. -/
def blkRow (p : Fin 16) (q : Fin 128) : Fin 2048 := ⟨p.val * 128 + q.val, by have := p.isLt; have := q.isLt; omega⟩

/-- THE STORE AT AN INDEX: entry (p, q) of what the body stores is the head's form over the block's own rows. -/
theorem stored_apply (x0 : FVec Ideal S2048x128 .f32) (x1 : FVec Ideal S128x64 .f32) (x2 : FVec Ideal S1x64 .f32)
    (x3 : FVec Ideal S64x1 .f32) (x4 : FVec Ideal S1x1 .f32) (p : Fin 16) (q : Fin 128) :
    k0_pay1 (F := Ideal) x0 x1 x2 x3 x4 (ix2 p q)
      = (∑ j : Fin 64,
            max ((∑ k : Fin 128, x0 (ix2 (blkRow p q) k) * x1 (ix2 k j)) + x2 (ix2 (0 : Fin 1) j)) (Ideal.ofBits .f32 0x00000000#32)
              * x3 (ix2 j (0 : Fin 1)))
          + x4 (ix2 (0 : Fin 1) (0 : Fin 1)) := by
  rw [stored_eq,
    shapeCast_apply _ shapeCasts_S2048x1_S16x128 (ix2 p q) (ix2 (blkRow p q) (0 : Fin 1)) (by
      rw [Shape.rowMajor_val_two, Shape.rowMajor_val_two]
      show (p.val * 128 + q.val) * 1 + 0 = p.val * 128 + q.val
      omega),
    layer2_apply]
  simp only [layer1_apply]

end Cert.KernelIdeal.Body

end
-- ==== Proof.HostArrays.lean ====
/-
  The arrays the kernel's region finds, read at an index.

  Before the region the program transposes `w1` to 128 × 64, and re-lays `b1` as a 1 × 64 row, `w2` (1 × 64)
  as a 64 × 1 column and `b2` as a 1 × 1 array; `acc` is passed as it is.  A transpose reads its operand with the
  two coordinates exchanged; a reshape keeps the row-major position, and between shapes with one non-unit axis
  that is the coordinate on that axis.
-/
import proofs.«100352_g8358006358319_cont_9to1c4b_776_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Host

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The first-layer weights as the region finds them: the transpose of the argument. -/
theorem w1t_eq (c : Dev nD) :
    (V m c main_v0 : S128x64.Idx → EReal)
      = transpose S128x64 [1, 0] (m ((c : Thread nD τ).loc main_arg1)) transposes_S64x128_S128x64_1_0 := by
  show StableHlo.after hostOps0 (fun b => m (c, b)) (Proc.devRef .tc main_v0) = _
  after_results <;> rfl

/-- The bias row: the argument re-laid 1 × 64. -/
theorem b1r_eq (c : Dev nD) :
    (V m c main_v1 : S1x64.Idx → EReal) = shapeCast S1x64 (m ((c : Thread nD τ).loc main_arg2)) shapeCasts_S64_S1x64 := by
  show StableHlo.after hostOps0 (fun b => m (c, b)) (Proc.devRef .tc main_v1) = _
  after_results <;> rfl

/-- The second-layer column: the argument's row re-laid 64 × 1. -/
theorem w2c_eq (c : Dev nD) :
    (V m c main_v2 : S64x1.Idx → EReal) = shapeCast S64x1 (m ((c : Thread nD τ).loc main_arg3)) shapeCasts_S1x64_S64x1 := by
  show StableHlo.after hostOps0 (fun b => m (c, b)) (Proc.devRef .tc main_v2) = _
  after_results <;> rfl

/-- The second-layer bias: the argument re-laid 1 × 1. -/
theorem b2r_eq (c : Dev nD) :
    (V m c main_v3 : S1x1.Idx → EReal) = shapeCast S1x1 (m ((c : Thread nD τ).loc main_arg4)) shapeCasts_S1_S1x1 := by
  show StableHlo.after hostOps0 (fun b => m (c, b)) (Proc.devRef .tc main_v3) = _
  after_results <;> rfl

/-- Entry (k, j) of the transposed weights is entry (j, k) of `w1`. -/
theorem w1t_apply (c : Dev nD) (k : Fin 128) (j : Fin 64) :
    (V m c main_v0 : S128x64.Idx → EReal) (ix2 k j) = (m ((c : Thread nD τ).loc main_arg1) : S64x128.Idx → EReal) (ix2 j k) := by
  rw [w1t_eq]
  exact transpose_apply [1, 0] _ transposes_S64x128_S128x64_1_0 (ix2 k j) (ix2 j k) (fun b => match b with
    | ⟨0, _⟩ => rfl
    | ⟨1, _⟩ => rfl)

/-- Entry (0, j) of the bias row is entry `j` of `b1`. -/
theorem b1r_apply (c : Dev nD) (j : Fin 64) :
    (V m c main_v1 : S1x64.Idx → EReal) (ix2 (0 : Fin 1) j) = (m ((c : Thread nD τ).loc main_arg2) : S64.Idx → EReal) (ix1 j) := by
  rw [b1r_eq]
  exact shapeCast_apply _ shapeCasts_S64_S1x64 (ix2 (0 : Fin 1) j) (ix1 j) (by
    rw [Shape.rowMajor_val_two, Shape.rowMajor_val_one]
    show j.val = 0 * 64 + j.val
    omega)

/-- Entry (j, 0) of the weight column is entry (0, j) of `w2`. -/
theorem w2c_apply (c : Dev nD) (j : Fin 64) :
    (V m c main_v2 : S64x1.Idx → EReal) (ix2 j (0 : Fin 1)) = (m ((c : Thread nD τ).loc main_arg3) : S1x64.Idx → EReal) (ix2 (0 : Fin 1) j) := by
  rw [w2c_eq]
  exact shapeCast_apply _ shapeCasts_S1x64_S64x1 (ix2 j (0 : Fin 1)) (ix2 (0 : Fin 1) j) (by
    rw [Shape.rowMajor_val_two, Shape.rowMajor_val_two]
    show 0 * 64 + j.val = j.val * 1 + 0
    omega)

/-- The one entry of the re-laid bias is the one entry of `b2`. -/
theorem b2r_apply (c : Dev nD) :
    (V m c main_v3 : S1x1.Idx → EReal) (ix2 (0 : Fin 1) (0 : Fin 1)) = (m ((c : Thread nD τ).loc main_arg4) : S1.Idx → EReal) (ix1 (0 : Fin 1)) := by
  rw [b2r_eq]
  exact shapeCast_apply _ shapeCasts_S1_S1x1 (ix2 (0 : Fin 1) (0 : Fin 1)) (ix1 (0 : Fin 1)) (by
    rw [Shape.rowMajor_val_two, Shape.rowMajor_val_one]
    rfl)

end Cert.KernelIdeal.Host

end
-- ==== Proof.Blocks.lean ====
/-
  From what a grid point writes back to the kernel's whole output array.

  The grid has 8 points.  Point `t` reads rows 2048·t … 2048·t + 2047 of `acc` (block `t` of 8 along the batch) and
  the whole of the four small arrays, and writes block `t` of the 128 × 128 output: its rows 16·t … 16·t + 15.  Entry
  (p, q) of that block is entry (16·t + p, q) of the array, which the row-major layout makes row
  128·(16·t + p) + q = 2048·t + (128·p + q) of the batch: exactly the row of `acc` the body's entry (p, q) was
  computed from.  So what point `t` writes back is block `t` of ONE array, the head in its 128 × 128 layout; the
  8 blocks tile the array (row `P` lies in block `P / 16`), so after the run the array is that layout whole.
-/
import proofs.«100352_g8358006358319_cont_9to1c4b_776_2_alg».proof.Proof.Gen.KernelIdeal.Frame
import proofs.«100352_g8358006358319_cont_9to1c4b_776_2_alg».proof.Proof.Payload
import proofs.«100352_g8358006358319_cont_9to1c4b_776_2_alg».proof.Proof.HostArrays
import proofs.«100352_g8358006358319_cont_9to1c4b_776_2_alg».proof.Proof.Spec

set_option maxRecDepth 16384

noncomputable section

namespace Cert.KernelIdeal.Blocks

open Cert.KernelIdeal Cert.KernelIdeal.Gen Cert.KernelIdeal.Body Cert.KernelIdeal.Host Cert.MlpHead
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zeroOffsets : (![0, 0] : Fin 2 → Nat) = fun _ => 0 := funext fun a => by fin_cases a <;> rfl

/-- The head in its 128 × 128 layout, of the argument arrays as launched. -/
abbrev tile (c : Dev nD) : S128x128.Idx → EReal :=
  headTile (m ((c : Thread nD τ).loc main_arg0)) (m ((c : Thread nD τ).loc main_arg1)) (m ((c : Thread nD τ).loc main_arg2))
    (m ((c : Thread nD τ).loc main_arg3)) (m ((c : Thread nD τ).loc main_arg4))

/-- The printed index maps over the grid: the batch block and the output block move with the point, the four small
    arrays stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- THE BLOCK LEMMA, over blocks as plain arrays: if `x0` is rows 2048·tv … of `acc`, `x1` the transposed `w1`,
    `x2`, `x3`, `x4` the re-laid `b1`, `w2`, `b2`, then entry (p, q) of what the body stores is the head at row
    2048·tv + 128·p + q. -/
theorem stored_head (acc : S16384x128.Idx → EReal) (w1 : S64x128.Idx → EReal) (b1 : S64.Idx → EReal)
    (w2 : S1x64.Idx → EReal) (b2 : S1.Idx → EReal)
    (x0 : FVec Ideal S2048x128 .f32) (x1 : FVec Ideal S128x64 .f32) (x2 : FVec Ideal S1x64 .f32)
    (x3 : FVec Ideal S64x1 .f32) (x4 : FVec Ideal S1x1 .f32) (tv : Nat) (htv : tv < 8)
    (row : Fin 2048 → Fin 16384) (hrow : ∀ r, (row r).val = tv * 2048 + r.val)
    (h0 : ∀ (r : Fin 2048) (k : Fin 128), x0 (ix2 r k) = acc (ix2 (row r) k))
    (h1 : ∀ (k : Fin 128) (j : Fin 64), x1 (ix2 k j) = w1 (ix2 j k))
    (h2 : ∀ j : Fin 64, x2 (ix2 (0 : Fin 1) j) = b1 (ix1 j))
    (h3 : ∀ j : Fin 64, x3 (ix2 j (0 : Fin 1)) = w2 (ix2 (0 : Fin 1) j))
    (h4 : x4 (ix2 (0 : Fin 1) (0 : Fin 1)) = b2 (ix1 (0 : Fin 1)))
    (p : Fin 16) (q : Fin 128) :
    k0_pay1 (F := Ideal) x0 x1 x2 x3 x4 (ix2 p q) = head acc w1 b1 w2 b2 (row (blkRow p q)) := by
  rw [stored_apply]
  unfold Cert.MlpHead.head Cert.MlpHead.hidden
  simp only [h0, h1, h2, h3, h4]

/-- WHAT POINT `t` WRITES BACK is block `t` of the head's 128 × 128 layout. -/
theorem flushed_eq (c : Dev nD) (t : Fin cfg0.N) :
    (dats m 0 c).flushed 5 t = ((cfg0.win 5).blk t).view.read (Elt Ideal) (tile m c) := by
  show (cfg0.win 5).cut (grid0.coords t) ((dats m 0 c).after 5 t) = _
  rw [after0_5]
  unfold out0_5
  rw [View.canon_unit_zero zeroOffsets]
  simp only [View.ld_unit_zero (S := S2048x128) zeroOffsets, View.ld_unit_zero (S := S128x64) zeroOffsets,
    View.ld_unit_zero (S := S1x64) zeroOffsets, View.ld_unit_zero (S := S64x1) zeroOffsets,
    View.ld_unit_zero (S := S1x1) zeroOffsets]
  obtain ⟨e00, e01, e10, e11, e20, e21, e30, e31, e40, e41, e50, e51⟩ := idx_facts t
  have ht : t.val < 8 := Nat.lt_of_lt_of_eq t.isLt N_0
  funext y
  obtain ⟨p, q, rfl⟩ : ∃ (p : Fin 16) (q : Fin 128), y = ix2 p q := ⟨y 0, y 1, eq_ix2 y⟩
  refine (stored_head (m ((c : Thread nD τ).loc main_arg0)) (m ((c : Thread nD τ).loc main_arg1))
    (m ((c : Thread nD τ).loc main_arg2)) (m ((c : Thread nD τ).loc main_arg3)) (m ((c : Thread nD τ).loc main_arg4))
    (iblk m c 0 t) (iblk m c 1 t) (iblk m c 2 t) (iblk m c 3 t) (iblk m c 4 t) t.val ht
    (fun r => ⟨t.val * 2048 + r.val, by have := r.isLt; omega⟩) (fun r => rfl) ?_ ?_ ?_ ?_ ?_ p q).trans ?_
  · intro r k
    show V m c main_arg0 (((cfg0.win 0).blk t).view.emb (ix2 r k)) = _
    rw [V_main_arg0]
    refine congrArg _ (funext fun a => Fin.ext ?_)
    match a with
    | ⟨0, _⟩ => show win0_0.index t (0 : Fin 2) * 2048 + 1 * r.val = t.val * 2048 + r.val; omega
    | ⟨1, _⟩ => show win0_0.index t (1 : Fin 2) * 128 + 1 * k.val = k.val; omega
  · intro k j
    show V m c main_v0 (((cfg0.win 1).blk t).view.emb (ix2 k j)) = _
    refine Eq.trans (congrArg _ (funext fun a => Fin.ext ?_)) (w1t_apply m c k j)
    match a with
    | ⟨0, _⟩ => show win0_1.index t (0 : Fin 2) * 128 + 1 * k.val = k.val; omega
    | ⟨1, _⟩ => show win0_1.index t (1 : Fin 2) * 64 + 1 * j.val = j.val; omega
  · intro j
    show V m c main_v1 (((cfg0.win 2).blk t).view.emb (ix2 (0 : Fin 1) j)) = _
    refine Eq.trans (congrArg _ (funext fun a => Fin.ext ?_)) (b1r_apply m c j)
    match a with
    | ⟨0, _⟩ => show win0_2.index t (0 : Fin 2) * 1 + 1 * 0 = 0; omega
    | ⟨1, _⟩ => show win0_2.index t (1 : Fin 2) * 64 + 1 * j.val = j.val; omega
  · intro j
    show V m c main_v2 (((cfg0.win 3).blk t).view.emb (ix2 j (0 : Fin 1))) = _
    refine Eq.trans (congrArg _ (funext fun a => Fin.ext ?_)) (w2c_apply m c j)
    match a with
    | ⟨0, _⟩ => show win0_3.index t (0 : Fin 2) * 64 + 1 * j.val = j.val; omega
    | ⟨1, _⟩ => show win0_3.index t (1 : Fin 2) * 1 + 1 * 0 = 0; omega
  · show V m c main_v3 (((cfg0.win 4).blk t).view.emb (ix2 (0 : Fin 1) (0 : Fin 1))) = _
    refine Eq.trans (congrArg _ (funext fun a => Fin.ext ?_)) (b2r_apply m c)
    match a with
    | ⟨0, _⟩ => show win0_4.index t (0 : Fin 2) * 1 + 1 * 0 = 0; omega
    | ⟨1, _⟩ => show win0_4.index t (1 : Fin 2) * 1 + 1 * 0 = 0; omega
  · show _ = tile m c (((cfg0.win 5).blk t).view.emb (ix2 p q))
    unfold tile headTile
    refine congrArg _ (Fin.ext ?_)
    show t.val * 2048 + (p.val * 128 + q.val) = (win0_5.index t (0 : Fin 2) * 16 + 1 * p.val) * 128 + (win0_5.index t (1 : Fin 2) * 128 + 1 * q.val)
    omega

/-- An index of the output array is in point `t`'s block iff each coordinate is in the block's range on its axis. -/
theorem mem_blk (t : Fin cfg0.N) (i : S128x128.Idx) :
    i ∈ ((cfg0.win 5).blk t).view.set ↔ ∀ a : Fin 2, win0_5.index t a * S16x128.size a ≤ (i a).val ∧ (i a).val < win0_5.index t a * S16x128.size a + S16x128.size a := by
  show i ∈ ((View.whole main_v4).slice (win0_5.rect t)).set ↔ _
  rw [View.set_slice_whole, Rect.mem_set_unit]
  exact Iff.rfl

/-- The 8 blocks tile the array: row `P` is in the block of point `P / 16`. -/
theorem covered (i : S128x128.Idx) : ∃ t : Fin cfg0.N, (cfg0.win 5).flush t = true ∧ i ∈ ((cfg0.win 5).blk t).view.set := by
  have hi0 : (i 0).val < 128 := (i 0).isLt
  have hi1 : (i 1).val < 128 := (i 1).isLt
  have hP : (i 0).val / 16 < cfg0.N := Nat.lt_of_lt_of_eq (by omega : (i 0).val / 16 < 8) N_0.symm
  refine ⟨⟨(i 0).val / 16, hP⟩, flush0_5 _, ?_⟩
  rw [mem_blk]
  obtain ⟨-, -, -, -, -, -, -, -, -, -, e50, e51⟩ := idx_facts ⟨(i 0).val / 16, hP⟩
  intro a
  match a with
  | ⟨0, _⟩ =>
    show win0_5.index _ (0 : Fin 2) * 16 ≤ (i 0).val ∧ (i 0).val < win0_5.index _ (0 : Fin 2) * 16 + 16
    rw [e50]; show (i 0).val / 16 * 16 ≤ (i 0).val ∧ (i 0).val < (i 0).val / 16 * 16 + 16; omega
  | ⟨1, _⟩ =>
    show win0_5.index _ (1 : Fin 2) * 128 ≤ (i 1).val ∧ (i 1).val < win0_5.index _ (1 : Fin 2) * 128 + 128
    rw [e51]; omega

/-- THE OUTPUT ARRAY after the run is the head in its 128 × 128 layout. -/
theorem array_eq (c : Dev nD) : (dats m 0 c).arrAt 5 cfg0.N = tile m c :=
  (dats m 0 c).arrAt_eq_of_cover 5 (tile m c) (fun t _ => flushed_eq m c t) covered

end Cert.KernelIdeal.Blocks

end
-- ==== Proof.KernelRun.lean ====
/-
  The kernel program's run, with its result named.

  After the region the program re-lays the 128 × 128 output array as a vector of length 16384.  A reshape keeps the
  row-major position, so entry `i` of the vector is entry (i / 128, i % 128) of the array, which is the head at row
  128·(i / 128) + i % 128 = i.  The argument arrays are left as launched: `acc` is only read through its window, and
  the other four are touched by no operation after the launch.
-/
import proofs.«100352_g8358006358319_cont_9to1c4b_776_2_alg».proof.Proof.Gen.KernelIdeal.Frame
import proofs.«100352_g8358006358319_cont_9to1c4b_776_2_alg».proof.Proof.Blocks

noncomputable section

namespace Cert.KernelIdeal.Result

open Cert.KernelIdeal Cert.KernelIdeal.Gen Cert.KernelIdeal.Blocks Cert.MlpHead
open Idealize.ShloMosaic Idealize.ShloMosaic.TcCoe Idealize.ShloMosaic.ValueIdx Idealize.SL.Sem

variable (m : (ℓ : Loc nD τ sig) → Buf (Elt Ideal) ℓ) (ρ : Dev nD → PrngReg)

/-- The head as a vector, of the argument arrays as launched. -/
abbrev vec (c : Dev nD) : S16384.Idx → EReal :=
  headVec (m ((c : Thread nD τ).loc main_arg0)) (m ((c : Thread nD τ).loc main_arg1)) (m ((c : Thread nD τ).loc main_arg2))
    (m ((c : Thread nD τ).loc main_arg3)) (m ((c : Thread nD τ).loc main_arg4))

/-- The 128 × 128 layout re-laid as a vector is the head as a vector. -/
theorem relaid (c : Dev nD) : shapeCast S16384 (tile m c) shapeCasts_S128x128_S16384 = vec m c := by
  funext i
  have hi : (i 0).val < 16384 := (i 0).isLt
  refine (shapeCast_apply _ shapeCasts_S128x128_S16384 i
    (ix2 (⟨(i 0).val / 128, by omega⟩ : Fin 128) (⟨(i 0).val % 128, by omega⟩ : Fin 128)) (by
      rw [Shape.rowMajor_val_two, Shape.rowMajor_val_one]
      show (i 0).val / 128 * 128 + (i 0).val % 128 = (i 0).val
      omega)).trans ?_
  unfold tile vec headTile headVec
  refine congrArg _ (Fin.ext ?_)
  show (i 0).val / 128 * 128 + (i 0).val % 128 = (i 0).val
  omega

/-- What the one operation after the region leaves in the result buffer. -/
theorem tail_eq (c : Dev nD) :
    Pipeline.afterTail₀ cfgs (dats m) 0 (V0 m) [hostOps1] c main_v5 = vec m c := by
  unfold Pipeline.afterTail₀
  show StableHlo.after hostOps1 _ (Proc.devRef .tc main_v5) = _
  after_results
  rw [(Pipeline.withArrays_arr spec0 launch0.win.arr_inj c _ _ 5).trans (array_eq m c)]
  exact relaid m c

/-- THE RUN: every weakly fair execution terminates with the result buffer at the head of the launched arguments,
    and the arguments unchanged. -/
theorem run : θ_run defs (onTc (τ := τ) (main (F := Ideal))) ⟨m, fun _ => 0, ρ⟩ (fun r => ∀ c : Dev nD,
      r.2.mem ((c.tc : Thread nD τ).loc main_v5) = vec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v5 (Pipeline.mem_restRefs_of main_v5 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Result

end
-- ==== Proof.lean ====
/-
  The kernel and its reference compute one function: a two-layer perceptron head,

    out[r] = Σ_{j < 64} max (Σ_{k < 128} acc[r, k] · W1[j, k] + b1[j]) 0 · W2[0, j] + b2[0]        (r < 16384),

  on the extended reals (Proof/Spec.lean).

  The reference computes it as whole-array host operations; read at an index its last stage is that sum
  (Proof/RefHead.lean).  The kernel walks the batch in 8 blocks of 2048 rows: at each it forms the same two
  products and the rectifier on the block (Proof/Payload.lean, over the arrays the host operations before the
  region leave: Proof/HostArrays.lean) and writes 2048 results as a 16 × 128 block of a 128 × 128 array; the blocks
  tile that array, which therefore ends as the head in row-major layout (Proof/Blocks.lean), and the reshape after
  the region returns it as the vector (Proof/KernelRun.lean).  At the ideal values a product accumulated into a zero
  array and the host's contraction are the same finite sum, so the two sides agree term by term: no law of the
  extended reals beyond that is used, and the finiteness of the inputs is never opened.

  The three frames: the two kernel programs' are the generated frame runs; the reference's is its generated run with
  the result dropped.  The idealization rewrote no operation, so there is nothing to preserve.
-/
import proofs.«100352_g8358006358319_cont_9to1c4b_776_2_alg».proof.Defs
import proofs.«100352_g8358006358319_cont_9to1c4b_776_2_alg».proof.Proof.Gen.Kernel
import proofs.«100352_g8358006358319_cont_9to1c4b_776_2_alg».proof.Proof.Gen.Kernel.Skeleton
import proofs.«100352_g8358006358319_cont_9to1c4b_776_2_alg».proof.Proof.Gen.Kernel.Launch
import proofs.«100352_g8358006358319_cont_9to1c4b_776_2_alg».proof.Proof.Gen.Kernel.Points
import proofs.«100352_g8358006358319_cont_9to1c4b_776_2_alg».proof.Proof.Gen.Kernel.Frame
import proofs.«100352_g8358006358319_cont_9to1c4b_776_2_alg».proof.Proof.Gen.KernelIdeal
import proofs.«100352_g8358006358319_cont_9to1c4b_776_2_alg».proof.Proof.Gen.KernelIdeal.Skeleton
import proofs.«100352_g8358006358319_cont_9to1c4b_776_2_alg».proof.Proof.Gen.KernelIdeal.Launch
import proofs.«100352_g8358006358319_cont_9to1c4b_776_2_alg».proof.Proof.Gen.KernelIdeal.Points
import proofs.«100352_g8358006358319_cont_9to1c4b_776_2_alg».proof.Proof.Gen.KernelIdeal.Frame
import proofs.«100352_g8358006358319_cont_9to1c4b_776_2_alg».proof.Proof.Gen.ReferenceIdeal
import proofs.«100352_g8358006358319_cont_9to1c4b_776_2_alg».proof.Proof.Gen.Pre_finite_inputs
import proofs.«100352_g8358006358319_cont_9to1c4b_776_2_alg».proof.Proof.Gen.ReferenceIdeal.Run
import proofs.«100352_g8358006358319_cont_9to1c4b_776_2_alg».proof.Proof.Gen.ReferenceIdeal.Read
import proofs.«100352_g8358006358319_cont_9to1c4b_776_2_alg».proof.Proof.RefHead
import proofs.«100352_g8358006358319_cont_9to1c4b_776_2_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the result buffer at the head of those
    arguments: the kernel by its run read block by block, the reference by its run read operation by operation. -/
theorem algebraic : Cert.algebraic_KernelIdeal_ReferenceIdeal := by
  intro m ρ m' ρ' _ hagree
  refine ⟨fun c => Cert.KernelIdeal.Result.vec m c, Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v11_eq, Cert.MlpHead.Ref.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
